-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192 : Shape := ⟨1, ![8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x8192 .f32) (main_arg1 : FVec F S8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S8192x8192 : Shape := ⟨2, ![8192, 8192]⟩
abbrev S8192 : Shape := ⟨1, ![8192]⟩
abbrev S1x8192 : Shape := ⟨2, ![1, 8192]⟩
abbrev S256x8192 : Shape := ⟨2, ![256, 8192]⟩

abbrev nBuf : Space → Nat
  | .hbm => 4
  | .vmem => 5
  | .smem => 0
  | _ => 0

abbrev bufTy : (tb : Table) → Fin (tcTables nBuf tb) → BufTy
  | .hbm, ⟨0, _⟩ => ⟨S8192x8192, .f32⟩
  | .hbm, ⟨1, _⟩ => ⟨S8192, .f32⟩
  | .hbm, ⟨2, _⟩ => ⟨S1x8192, .f32⟩
  | .hbm, ⟨3, _⟩ => ⟨S8192x8192, .f32⟩
  | .local _ .vmem, ⟨0, _⟩ => ⟨S256x8192, .f32⟩
  | .local _ .vmem, ⟨1, _⟩ => ⟨S256x8192, .f32⟩
  | .local _ .vmem, ⟨2, _⟩ => ⟨S1x8192, .f32⟩
  | .local _ .vmem, ⟨3, _⟩ => ⟨S256x8192, .f32⟩
  | .local _ .vmem, ⟨4, _⟩ => ⟨S256x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8192_S1x8192 : S8192.ShapeCasts S1x8192
  inb_S256x8192_S256x8192_0_0 : ∀ a, (![0, 0] : Fin 2 → Nat) a + S256x8192.size a ≤ S256x8192.size a
  h_S256x8192 : 0 < S256x8192.numel
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S256x8192 : S1x8192.Broadcasts S256x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x8192.size a ≤ S8192x8192.size a
  hwx0_2 : ∀ i : grid0.Coords, EltTy.bits .f32 = 32 ∨ (Rect.block (s := S8192x8192) S256x8192.size (cc0_transform_2 i) (hinb0_2 i)).WholeWords (EltTy.packing .f32)

variable [Facts₀]

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S8192x8192 : Shape := ⟨2, ![8192, 8192]⟩
abbrev S8192 : Shape := ⟨1, ![8192]⟩
abbrev S1x8192 : Shape := ⟨2, ![1, 8192]⟩

abbrev nBuf : Space → Nat
  | .hbm => 5
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192, .f32⟩
  | .hbm, ⟨2, _⟩ => ⟨S1x8192, .f32⟩
  | .hbm, ⟨3, _⟩ => ⟨S8192x8192, .f32⟩
  | .hbm, ⟨4, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)

variable [Facts₀]

class Facts : Prop extends Facts₀ where

variable [Facts]
-- ==== Proof.ColumnScale.lean ====
/-
  Scaling the columns of a matrix by a vector of weights.

  For a matrix `x` of 8192 rows and 8192 columns and a vector `w` of 8192 weights, the scaled matrix holds at
  row `r` and column `q` the product `x(r, q) · w(q)`: every column `q` is multiplied through by its own weight.
  This is the product of `x` with the diagonal matrix of `w`, with the zero terms of that product left out.

  The weight of a matrix entry is found by forgetting the entry's row. Two spellings of that are used: the weight's
  place in the vector itself, and its place when the vector is laid out as a matrix of ONE row, which is how the
  vector reaches a program that only handles matrices. Both name the same weight, because a one-row matrix lists its
  entries in the vector's own order.

  The definitions are stated for any reading of the floats (exact or rounded): nothing here uses a law of
  multiplication. Both programs of the certificate multiply the same entry by the same weight, in the same order.
-/
import Idealize.ShloMosaic.PureOps
import Idealize.ShloMosaic.Lib.ValueIdx

noncomputable section

namespace Cert.ColumnScale

open Idealize.ShloMosaic Idealize.ShloMosaic.ValueIdx

variable {F : FTy → Type} [FloatOps F]

/-- The matrix's shape, the weight vector's, and the vector's as a matrix of one row. -/
abbrev Mat : Shape := ⟨2, ![8192, 8192]⟩
abbrev Weights : Shape := ⟨1, ![8192]⟩
abbrev WeightRow : Shape := ⟨2, ![1, 8192]⟩

/-- Where the vector holds the weight of the matrix entry `i`: at `i`'s column. -/
abbrev weightOf (i : Mat.Idx) : Weights.Idx := ix1 (n := 8192) (i 1)

/-- Where the one-row layout holds that weight: in its only row, at `i`'s column. -/
abbrev weightInRow (i : Mat.Idx) : WeightRow.Idx := ix2 (n0 := 1) (n1 := 8192) 0 (i 1)

/-- The matrix `x` with every column multiplied by its weight: entry `i` is `x i · w (column of i)`. -/
def scaleCols (x : Mat.Idx → Elt F .f32) (w : Weights.Idx → Elt F .f32) : Mat.Idx → Elt F .f32 :=
  fun i => FloatOps.mulf (x i) (w (weightOf i))

/-- The same matrix computed from the one-row layout `w'` of the weights: when the row holds at column `q` the
    vector's entry `q`, multiplying entry `i` by the row's entry above it scales the columns by `w`. -/
theorem scaleCols_of_row (x : Mat.Idx → Elt F .f32) (w : Weights.Idx → Elt F .f32) (w' : WeightRow.Idx → Elt F .f32)
    (hrow : ∀ q : Fin 8192, w' (ix2 (n0 := 1) (n1 := 8192) 0 q) = w (ix1 q)) :
    (fun i => FloatOps.mulf (x i) (w' (weightInRow i))) = scaleCols x w := by
  funext i
  show FloatOps.mulf (x i) (w' (ix2 (n0 := 1) (n1 := 8192) 0 (i 1))) = FloatOps.mulf (x i) (w (ix1 (n := 8192) (i 1)))
  rw [hrow (i 1)]

end Cert.ColumnScale

end
-- ==== Proof.ReferenceValue.lean ====
/-
  The reference computes the column-scaled matrix.

  The reference multiplies the matrix, entry by entry, by the weight vector stretched to the matrix's shape in two
  steps: first to a matrix of one row, then that row repeated down all 8192 rows. Read at a matrix entry `i`, the
  repeated row gives the one-row matrix at column `i 1`, and that gives the vector at `i 1`: the weight of `i`'s
  column. So the reference's result at `i` is `x i · w (column of i)`, the entry of `ColumnScale.scaleCols`.
-/
import proofs.«430917_j35081292874429_3_alg».proof.Proof.Gen.ReferenceIdeal.Read
import proofs.«430917_j35081292874429_3_alg».proof.Proof.ColumnScale

noncomputable section

namespace Cert.ReferenceIdeal.RefValue

open Cert.ReferenceIdeal Cert.ReferenceIdeal.Read Cert.ColumnScale
open Idealize.ShloMosaic Idealize.ShloMosaic.ValueIdx

variable {F : FTy → Type} [FloatOps F]

/-- The two stretches composed: a matrix entry reads the weight vector at its own column. -/
theorem stretched_reads_column (i : S8192x8192.Idx) : idx_main_v0 (idx_main_v1 i) = weightOf i := by
  funext a
  match a with
  | ⟨0, _⟩ => rfl

/-- The reference's product, stage by stage, is the matrix with each column scaled by its weight. -/
theorem reference_scales (x : (⟨S8192x8192, .f32⟩ : BufTy).Contents (Elt F)) (w : (⟨S8192, .f32⟩ : BufTy).Contents (Elt F)) :
    val_main_v2 (F := F) x w = scaleCols x w := by
  funext i
  rw [val_main_v2_apply, val_main_v1_apply, val_main_v0_apply, stretched_reads_column]
  rfl

end Cert.ReferenceIdeal.RefValue

end
-- ==== Proof.KernelBands.lean ====
/-
  The kernel computes the column-scaled matrix.

  The kernel walks the matrix in 32 bands of 256 whole rows. At band `t` it holds the band's rows of `x` and the
  weights laid out as a matrix of one row (the same row at every band: it never moves), and writes back, at row `r`
  and column `q` of the band, `x(256·t + r, q)` times the row's entry at column `q`.

  Three facts make the output array the column-scaled matrix.
  * Inside a band: the stored block at `(r, q)` is the band of `x` at `(r, q)` times the weight row at `(0, q)`
    (the row is repeated down the band's 256 rows before the product).
  * Placing the band: entry `(r, q)` of band `t` is the matrix entry `(256·t + r, q)`; the band of `x` read and the
    band of the output written sit at the same place, and the weight row's block is the whole row. So what band `t`
    writes back is band `t` of ONE matrix: `x i` times the weight row above `i`'s column.
  * The bands cover: row `r` of the matrix lies in band `r / 256`, and every band is written back.
  The weight row itself is the weight vector in the vector's own order (the host re-lays it before the kernel starts),
  so the weight above column `q` is `w(q)`.
-/
import proofs.«430917_j35081292874429_3_alg».proof.Proof.Gen.KernelIdeal.Value
import proofs.«430917_j35081292874429_3_alg».proof.Proof.ColumnScale
import Idealize.ShloMosaic.Lib.ValueIdx
import Idealize.ShloMosaic.Lib.StableHlo.Run

noncomputable section

namespace Cert.KernelIdeal.Bands

open Cert.KernelIdeal Cert.KernelIdeal.Gen Cert.ColumnScale
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-! ## The weight row the kernel is handed -/

/-- Before the kernel starts the host has laid the weight vector out as a matrix of one row. -/
theorem weight_row (c : Dev nD) :
    (V m c main_v0 : S1x8192.Idx → Elt F .f32)
      = shapeCast S1x8192 (m ((c : Thread nD τ).loc main_arg1)) shapeCasts_S8192_S1x8192 := by
  dsimp only [Gen.V, Gen.hostOps0]; after_results; rfl

/-- The row holds at column `q` the vector's entry `q`: both sit at position `q` of their row-major orders. -/
theorem weight_row_apply (c : Dev nD) (q : Fin 8192) :
    V m c main_v0 (ix2 (n0 := 1) (n1 := 8192) 0 q) = m ((c : Thread nD τ).loc main_arg1) (ix1 q) := by
  rw [weight_row]
  refine shapeCast_apply _ _ _ _ ?_
  show ((⟨1, ![8192]⟩ : Shape).rowMajor (ix1 q)).val = ((⟨2, ![1, 8192]⟩ : Shape).rowMajor (ix2 (n0 := 1) (n1 := 8192) 0 q)).val
  rw [Shape.rowMajor_val_one, Shape.rowMajor_val_two]
  show q.val = 0 * 8192 + q.val
  omega

/-! ## Inside one band -/

theorem zero_offsets : (![0, 0] : Fin 2 → Nat) = fun _ => 0 := funext fun a => by fin_cases a <;> rfl

/-- What the body leaves in the output block, from the band of `x` (`xs`) and the weight row (`ws`): at row `r`,
    column `q` of the band, `xs (r, q)` times `ws (0, q)`. -/
theorem band_entry (xs : Vec F S256x8192 .f32) (ws : Vec F S1x8192 .f32) (y : S256x8192.Idx) :
    out0_2 xs ws y = FloatOps.mulf (xs y) (ws (ix2 (n0 := 1) (n1 := 8192) 0 (y 1))) := by
  unfold out0_2
  rw [Value.canon2_eq]
  simp only [View.ld_unit_zero (S := S256x8192) zero_offsets, View.ld_unit_zero (S := S1x8192) zero_offsets]
  show FloatOps.mulf (xs (Value.ix2_0 y)) (ws (Value.ix2_1 y)) = _
  have e0 : Value.ix2_0 y = y := by
    funext a; apply Fin.ext
    match a with
    | ⟨0, _⟩ => rfl
    | ⟨1, _⟩ => rfl
  have e1 : Value.ix2_1 y = ix2 (n0 := 1) (n1 := 8192) 0 (y 1) := by
    funext a; apply Fin.ext
    match a with
    | ⟨0, _⟩ => rfl
    | ⟨1, _⟩ => rfl
  rw [e0, e1]

/-! ## Placing the bands in the matrix -/

/-- Band `t` of the matrix read and band `t` of the output written start at row block `t`, column block 0; the weight
    row's block is always the first (and only) one. Decided over the 32 bands. -/
theorem band_places : ∀ t : Fin cfg0.N,
    win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- The matrix both bands are bands of: `x` as the kernel finds it, each entry times the weight-row entry above its
    column. -/
abbrev rowScaled (c : Dev nD) : S8192x8192.Idx → Elt F .f32 :=
  fun i => FloatOps.mulf (V m c main_arg0 i) (V m c main_v0 (weightInRow i))

/-- What band `t` writes back is band `t` of `rowScaled`. -/
theorem written_band (c : Dev nD) (t : Fin cfg0.N) :
    (dats m 0 c).flushed 2 t = ((cfg0.win 2).blk t).view.read (Elt F) (rowScaled m c) := by
  rw [Value.flushed2]
  funext j
  show out0_2 (iblk m c 0 t) (iblk m c 1 t) j = _
  refine (band_entry _ _ j).trans ?_
  obtain ⟨o0, o1, x0, x1, w0, w1⟩ := band_places t
  have hj0 : (j 0).val < 256 := (j 0).isLt
  have hj1 : (j 1).val < 8192 := (j 1).isLt
  show FloatOps.mulf (V m c main_arg0 (((cfg0.win 0).blk t).view.emb j))
        (V m c main_v0 (((cfg0.win 1).blk t).view.emb (ix2 (n0 := 1) (n1 := 8192) 0 (j 1))))
      = FloatOps.mulf (V m c main_arg0 (((cfg0.win 2).blk t).view.emb j))
        (V m c main_v0 (weightInRow (((cfg0.win 2).blk t).view.emb j)))
  have hx : ((cfg0.win 0).blk t).view.emb j = ((cfg0.win 2).blk t).view.emb j := by
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 8192 + 1 * (j 1).val = win0_2.index t (1 : Fin 2) * 8192 + 1 * (j 1).val; omega
  have hw : ((cfg0.win 1).blk t).view.emb (ix2 (n0 := 1) (n1 := 8192) 0 (j 1))
      = weightInRow (((cfg0.win 2).blk t).view.emb j) := by
    funext a; apply Fin.ext
    match a with
    | ⟨0, _⟩ => show win0_1.index t (0 : Fin 2) * 1 + 1 * 0 = 0; omega
    | ⟨1, _⟩ => show win0_1.index t (1 : Fin 2) * 8192 + 1 * (j 1).val = win0_2.index t (1 : Fin 2) * 8192 + 1 * (j 1).val; omega
  rw [hx, hw]

/-! ## The bands cover the matrix -/

/-- A matrix entry is in band `t` iff each of its coordinates is in the band's range on that axis. -/
theorem mem_band (t : Fin cfg0.N) (i : S8192x8192.Idx) :
    i ∈ ((cfg0.win 2).blk t).view.set ↔ ∀ a : Fin 2, win0_2.index t a * S256x8192.size a ≤ (i a).val
      ∧ (i a).val < win0_2.index t a * S256x8192.size a + S256x8192.size a := by
  show i ∈ ((View.whole main_v1).slice (win0_2.rect t)).set ↔ _
  rw [View.set_slice_whole, Rect.mem_set_unit]
  exact Iff.rfl

/-- Row `r` lies in band `r / 256`, which is written back like every band. -/
theorem bands_cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  have hN : cfg0.N = 32 := N_0
  let t : Fin cfg0.N := ⟨(i 0).val / 256, by rw [hN]; omega⟩
  have ht : t.val = (i 0).val / 256 := rfl
  obtain ⟨o0, o1, -⟩ := band_places t
  refine ⟨t, flush0_2 t, ?_⟩
  rw [mem_band]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 8192 ≤ (i 1).val ∧ (i 1).val < win0_2.index t (1 : Fin 2) * 8192 + 8192; omega

/-! ## The output array, and the run -/

/-- The output array after the last band is the matrix with each column scaled by its weight. -/
theorem output_scaled (c : Dev nD) :
    (dats m 0 c).arrAt 2 cfg0.N
      = scaleCols (m ((c : Thread nD τ).loc main_arg0)) (m ((c : Thread nD τ).loc main_arg1)) := by
  rw [(dats m 0 c).arrAt_eq_of_cover 2 (rowScaled m c) (fun t _ => written_band m c t) bands_cover]
  show (fun i => FloatOps.mulf (V m c main_arg0 i) (V m c main_v0 (weightInRow i))) = _
  rw [V_main_arg0]
  exact scaleCols_of_row _ _ _ (weight_row_apply m c)

/-- Every fair execution of the kernel program ends with the column-scaled matrix in its result and its arguments as
    they were. -/
theorem run : θ_run defs (onTc (τ := τ) (main (F := F))) ⟨m, fun _ => 0, ρ⟩ fun r => ∀ c : Dev nD,
      r.2.mem ((c : Thread nD τ).loc main_v1)
        = scaleCols (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (output_scaled m c), (h c).2⟩) (Value.run_blocks m ρ)

end Cert.KernelIdeal.Bands

end
-- ==== Proof.lean ====
/-
  The kernel scales the columns of a matrix by a vector of weights, and so does its reference.

  For `x` of 8192 rows and 8192 columns and `w` of 8192 weights, both programs return the matrix whose entry at row `r`,
  column `q` is `x(r, q) · w(q)` (Proof/ColumnScale.lean, `scaleCols`): the product of `x` with the diagonal matrix of `w`.

  * The reference stretches `w` to the matrix's shape (to one row, then that row down every row) and multiplies entry
    by entry; an entry of the stretched matrix is the weight of its column (Proof/ReferenceValue.lean).
  * The kernel lays `w` out as one row, walks `x` in 32 bands of 256 rows, and in each band multiplies every row by the
    weight row; band `t` is written to rows `256·t … 256·t + 255` of the result, and the 32 bands cover all 8192 rows
    (Proof/KernelBands.lean). The result is written to an array of its own, which starts as a copy of `x`; `x` itself is
    only read.
  Each entry is ONE product of the same two numbers in the same order in both programs, so they agree on every
  extended real: no law of arithmetic is needed, and the finiteness of the inputs is never used.

  The three frame claims are the generated frames (the reference's is its generated run with the result dropped); the
  idealization rewrote nothing, so what it preserves is trivially true.
-/
import proofs.«430917_j35081292874429_3_alg».proof.Defs
import proofs.«430917_j35081292874429_3_alg».proof.Proof.Gen.Kernel
import proofs.«430917_j35081292874429_3_alg».proof.Proof.Gen.Kernel.Skeleton
import proofs.«430917_j35081292874429_3_alg».proof.Proof.Gen.Kernel.Launch
import proofs.«430917_j35081292874429_3_alg».proof.Proof.Gen.Kernel.Points
import proofs.«430917_j35081292874429_3_alg».proof.Proof.Gen.Kernel.Frame
import proofs.«430917_j35081292874429_3_alg».proof.Proof.Gen.KernelIdeal
import proofs.«430917_j35081292874429_3_alg».proof.Proof.Gen.KernelIdeal.Skeleton
import proofs.«430917_j35081292874429_3_alg».proof.Proof.Gen.KernelIdeal.Launch
import proofs.«430917_j35081292874429_3_alg».proof.Proof.Gen.KernelIdeal.Points
import proofs.«430917_j35081292874429_3_alg».proof.Proof.Gen.KernelIdeal.Frame
import proofs.«430917_j35081292874429_3_alg».proof.Proof.Gen.ReferenceIdeal
import proofs.«430917_j35081292874429_3_alg».proof.Proof.Gen.Pre_finite_inputs
import proofs.«430917_j35081292874429_3_alg».proof.Proof.Gen.KernelIdeal.Value
import proofs.«430917_j35081292874429_3_alg».proof.Proof.Gen.ReferenceIdeal.Run
import proofs.«430917_j35081292874429_3_alg».proof.Proof.Gen.ReferenceIdeal.Read
import proofs.«430917_j35081292874429_3_alg».proof.Proof.ColumnScale
import proofs.«430917_j35081292874429_3_alg».proof.Proof.ReferenceValue
import proofs.«430917_j35081292874429_3_alg».proof.Proof.KernelBands
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with the column-scaled matrix of those arguments: the kernel band by
    band, the reference in one product with the stretched weights. -/
theorem algebraic : Cert.algebraic_KernelIdeal_ReferenceIdeal := by
  intro m ρ m' ρ' _ hagree
  refine ⟨fun c => Cert.ColumnScale.scaleCols (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Bands.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.reference_scales, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
